-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x224x224x64 : Shape := ⟨4, ![32, 224, 224, 64]⟩
abbrev S_ : Shape := ⟨0, ![]⟩

class Facts : Prop where
  bcast_S_S32x224x224x64 : S_.BroadcastsInDim S32x224x224x64 (![] : Fin 0 → Fin S32x224x224x64.rank)
  reducesTo_S32x224x224x64_S_d0_1_2_3 : S32x224x224x64.ReducesTo [0, 1, 2, 3] S_
  h_S_ : 0 < S_.numel

variable [Facts]

def fn {F : FTy → Type} [FloatOps F] (main_arg0 : FVec F S32x224x224x64 .f32) : IVec S_ 1 :=
  let main_v0 : FVec F S32x224x224x64 .f32 := Host.absf main_arg0
  let main_cst : FVec F S_ .f32 := constant S_ .f32 0x7F800000#32
  let main_v1 : FVec F S32x224x224x64 .f32 := broadcastInDim S32x224x224x64 ![] bcast_S_S32x224x224x64 main_cst
  let main_v2 : IVec S32x224x224x64 1 := cmpf .olt main_v0 main_v1
  let main_c : IVec S_ 1 := constantI S_ 1 1#1
  let main_v3 : IVec S_ 1 := (fun x v => Host.reduce IntOp.andi x v reducesTo_S32x224x224x64_S_d0_1_2_3 h_S_) main_v2 main_c
  main_v3
-- ==== Kernel.lean ====
abbrev S32x224x224x64 : Shape := ⟨4, ![32, 224, 224, 64]⟩
abbrev S32x112x112x256 : Shape := ⟨4, ![32, 112, 112, 256]⟩
abbrev S1x56x112x64 : Shape := ⟨4, ![1, 56, 112, 64]⟩
abbrev S1x56x112x256 : Shape := ⟨4, ![1, 56, 112, 256]⟩

abbrev nBuf : Space → Nat
  | .hbm => 2
  | .vmem => 10
  | .smem => 0
  | _ => 0

abbrev bufTy : (tb : Table) → Fin (tcTables nBuf tb) → BufTy
  | .hbm, ⟨0, _⟩ => ⟨S32x224x224x64, .f32⟩
  | .hbm, ⟨1, _⟩ => ⟨S32x112x112x256, .f32⟩
  | .local _ .vmem, ⟨0, _⟩ => ⟨S1x56x112x64, .f32⟩
  | .local _ .vmem, ⟨1, _⟩ => ⟨S1x56x112x64, .f32⟩
  | .local _ .vmem, ⟨2, _⟩ => ⟨S1x56x112x64, .f32⟩
  | .local _ .vmem, ⟨3, _⟩ => ⟨S1x56x112x64, .f32⟩
  | .local _ .vmem, ⟨4, _⟩ => ⟨S1x56x112x64, .f32⟩
  | .local _ .vmem, ⟨5, _⟩ => ⟨S1x56x112x64, .f32⟩
  | .local _ .vmem, ⟨6, _⟩ => ⟨S1x56x112x64, .f32⟩
  | .local _ .vmem, ⟨7, _⟩ => ⟨S1x56x112x64, .f32⟩
  | .local _ .vmem, ⟨8, _⟩ => ⟨S1x56x112x256, .f32⟩
  | .local _ .vmem, ⟨9, _⟩ => ⟨S1x56x112x256, .f32⟩
  | _, _ => ⟨S32x224x224x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, arg1.toNat, c1_i32.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c1_i32 : BitVec 32 := 1#32
  let c0_i32 : BitVec 32 := 0#32
  let c0_i32_0 : BitVec 32 := 0#32
  ![arg0.toNat, v0.toNat, c1_i32.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x56x112x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x112x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x56x112x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x56x112x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x56x112x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x56x112x64_S1x56x112x64_0_0_0_0 : ∀ a, (![0, 0, 0, 0] : Fin 4 → Nat) a + S1x56x112x64.size a ≤ S1x56x112x64.size a
  h_S1x56x112x64 : 0 < S1x56x112x64.numel
  inb_S1x56x112x256_S1x56x112x64_0_0_0_0 : ∀ a, (![0, 0, 0, 0] : Fin 4 → Nat) a + S1x56x112x64.size a ≤ S1x56x112x256.size a
  inb_S1x56x112x256_S1x56x112x64_0_0_0_64 : ∀ a, (![0, 0, 0, 64] : Fin 4 → Nat) a + S1x56x112x64.size a ≤ S1x56x112x256.size a
  inb_S1x56x112x256_S1x56x112x64_0_0_0_128 : ∀ a, (![0, 0, 0, 128] : Fin 4 → Nat) a + S1x56x112x64.size a ≤ S1x56x112x256.size a
  inb_S1x56x112x256_S1x56x112x64_0_0_0_192 : ∀ a, (![0, 0, 0, 192] : Fin 4 → Nat) a + S1x56x112x64.size a ≤ S1x56x112x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x112x64.size a ≤ S32x224x224x64.size a
  hwx0_0 : ∀ i : grid0.Coords, EltTy.bits .f32 = 32 ∨ (Rect.block (s := S32x224x224x64) S1x56x112x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x112x64.size a ≤ S32x224x224x64.size a
  hwx0_1 : ∀ i : grid0.Coords, EltTy.bits .f32 = 32 ∨ (Rect.block (s := S32x224x224x64) S1x56x112x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x112x64.size a ≤ S32x224x224x64.size a
  hwx0_2 : ∀ i : grid0.Coords, EltTy.bits .f32 = 32 ∨ (Rect.block (s := S32x224x224x64) S1x56x112x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x56x112x64.size a ≤ S32x224x224x64.size a
  hwx0_3 : ∀ i : grid0.Coords, EltTy.bits .f32 = 32 ∨ (Rect.block (s := S32x224x224x64) S1x56x112x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x112x256.size a ≤ S32x112x112x256.size a
  hwx0_4 : ∀ i : grid0.Coords, EltTy.bits .f32 = 32 ∨ (Rect.block (s := S32x112x112x256) S1x56x112x256.size (cc0_transform_4 i) (hinb0_4 i)).WholeWords (EltTy.packing .f32)

variable [Facts₀]

abbrev win0_0 : Pipeline.Window sig grid0 :=
  Pipeline.Window.ofSpec (Memref.whole main_arg0) S1x56x112x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x56x112x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x56x112x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x56x112x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x56x112x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x224x224x64 : Shape := ⟨4, ![32, 224, 224, 64]⟩
abbrev S32x112x112x64 : Shape := ⟨4, ![32, 112, 112, 64]⟩
abbrev S32x112x112x256 : Shape := ⟨4, ![32, 112, 112, 256]⟩

abbrev nBuf : Space → Nat
  | .hbm => 6
  | .vmem => 0
  | .smem => 0
  | _ => 0

abbrev bufTy : (tb : Table) → Fin (tcTables nBuf tb) → BufTy
  | .hbm, ⟨0, _⟩ => ⟨S32x224x224x64, .f32⟩
  | .hbm, ⟨1, _⟩ => ⟨S32x112x112x64, .f32⟩
  | .hbm, ⟨2, _⟩ => ⟨S32x112x112x64, .f32⟩
  | .hbm, ⟨3, _⟩ => ⟨S32x112x112x64, .f32⟩
  | .hbm, ⟨4, _⟩ => ⟨S32x112x112x64, .f32⟩
  | .hbm, ⟨5, _⟩ => ⟨S32x112x112x256, .f32⟩
  | _, _ => ⟨S32x224x224x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]

class Facts₀ : Prop where
  slices_S32x224x224x64_S32x112x112x64_0_0_0_0 : S32x224x224x64.Slices ![0, 0, 0, 0] S32x112x112x64
  slices_S32x224x224x64_S32x112x112x64_0_0_112_0 : S32x224x224x64.Slices ![0, 0, 112, 0] S32x112x112x64
  slices_S32x224x224x64_S32x112x112x64_0_112_0_0 : S32x224x224x64.Slices ![0, 112, 0, 0] S32x112x112x64
  slices_S32x224x224x64_S32x112x112x64_0_112_112_0 : S32x224x224x64.Slices ![0, 112, 112, 0] S32x112x112x64
  concatenates_S32x112x112x64_S32x112x112x64_S32x112x112x64_S32x112x112x64_S32x112x112x256_d3 : Shape.Concatenates [S32x112x112x64, S32x112x112x64, S32x112x112x64, S32x112x112x64] S32x112x112x256 3

variable [Facts₀]

class Facts : Prop extends Facts₀ where

variable [Facts]
-- ==== Proof.KernelData.lean ====
/-
  The proof data of the quadrant kernel's one pipeline, for any float instance.

  The pipeline has five windows. Windows 0 to 3 all read the ONE input array: at grid point (i, j) — image i, upper or
  lower half j of a quadrant's 112 rows — they fetch the 56 × 112 × 64 block of the top-left, top-right,
  bottom-left and bottom-right quadrant. Window 4 is the result's 56 × 112 × 256 block at the same point. The body copies
  input block q into channels 64 q … 64 q + 63 of the result block, so after the body the result's staging buffer is the
  four input blocks laid side by side along the channel axis (`sideBySide`), and every input buffer still holds its block.
  Because four windows hold the same array, each holds it at a quarter share.
-/
import proofs.«143528_j24867860644147_1_alg».proof.Proof.Gen.Kernel.Launch
import proofs.«143528_j24867860644147_1_alg».proof.Proof.Gen.Kernel.Skeleton
import proofs.«143528_j24867860644147_1_alg».proof.Proof.Gen.Kernel.Points
import Idealize.ShloMosaic.Lib.Pipeline.FrameBody

set_option maxRecDepth 16384

noncomputable section

namespace Cert.Kernel.Quad

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## The arrays and their blocks -/

/-- Core `c`'s buffers when the region is entered: as launched, the region being all of the program. -/
abbrev V (c : Dev nD) (b : Ref sig .tc) : Buf (Elt F) ((c : Thread nD τ).loc b) := m ((c : Thread nD τ).loc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result's buffer -/

/-- An input buffer, whole. -/
abbrev rIn : Rect S1x56x112x64 := Rect.unit (s := S1x56x112x64) ![0, 0, 0, 0] S1x56x112x64.size inb_S1x56x112x64_S1x56x112x64_0_0_0_0
/-- The result buffer's channels 0 … 63, 64 … 127, 128 … 191 and 192 … 255. -/
abbrev rQ0 : Rect S1x56x112x256 := Rect.unit (s := S1x56x112x256) ![0, 0, 0, 0] S1x56x112x64.size inb_S1x56x112x256_S1x56x112x64_0_0_0_0
abbrev rQ1 : Rect S1x56x112x256 := Rect.unit (s := S1x56x112x256) ![0, 0, 0, 64] S1x56x112x64.size inb_S1x56x112x256_S1x56x112x64_0_0_0_64
abbrev rQ2 : Rect S1x56x112x256 := Rect.unit (s := S1x56x112x256) ![0, 0, 0, 128] S1x56x112x64.size inb_S1x56x112x256_S1x56x112x64_0_0_0_128
abbrev rQ3 : Rect S1x56x112x256 := Rect.unit (s := S1x56x112x256) ![0, 0, 0, 192] S1x56x112x64.size inb_S1x56x112x256_S1x56x112x64_0_0_0_192

/-- Four blocks laid side by side along the channel axis: the four stores of the body, the last one first. -/
def sideBySide (x0 x1 x2 x3 : Vec F S1x56x112x64 .f32) : Vec F S1x56x112x256 .f32 :=
  View.canon [⟨rQ3, View.ld x3 rIn⟩, ⟨rQ2, View.ld x2 rIn⟩, ⟨rQ1, View.ld x1 rIn⟩, ⟨rQ0, View.ld x0 rIn⟩]

/-- The four channel ranges tile the result buffer. -/
theorem sideBySide_cover (p0 p1 p2 p3 : Vec F S1x56x112x64 .f32) (y : S1x56x112x256.Idx) :
    ∃ pc ∈ ([⟨rQ3, p3⟩, ⟨rQ2, p2⟩, ⟨rQ1, p1⟩, ⟨rQ0, p0⟩] : List (View.Piece (Elt F) S1x56x112x256 .f32)), y ∈ pc.1.set :=
  View.cover_of_tiled [⟨rQ3, p3⟩, ⟨rQ2, p2⟩, ⟨rQ1, p1⟩, ⟨rQ0, p0⟩] S1x56x112x64.size (by rfl) y

/-! ## The proof data -/

/-- The input array is held by four windows: each at a quarter. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare

/-- The proof data on core `c`: the arrays as launched; after the body at point `t` every input buffer at its block and
    the result buffer at the four blocks side by side; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => sideBySide (iblk m c 0 t) (iblk m c 1 t) (iblk m c 2 t) (iblk m c 3 t)
  Φ _ := iprop(emp)
  q := quarter
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = sideBySide (iblk m c 0 t) (iblk m c 1 t) (iblk m c 2 t) (iblk m c 3 t) := by dsimp only [dats]

/-- Every input window is fetched at every point, so the body finds its block in the buffer. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

end Cert.Kernel.Quad

end
-- ==== Proof.KernelRun.lean ====
/-
  The quadrant kernel's run, for any float instance: the body at one grid point, the body at every point, and the
  whole program from launch to return.

  At a grid point the body holds each of the four input buffers at its quadrant's block and the result buffer at
  anything; it loads each input buffer whole and stores it into its own range of 64 channels of the result buffer (before
  each store it also loads that range of the result buffer, a value it never uses). The four ranges tile the result
  buffer, so the buffer ends holding the four blocks side by side, and the input buffers are as they were.
  Nothing is carried from point to point.

  The four input windows read ONE array. At launch the array's buffer is held whole; it is cut into four quarter
  shares, one per window, which is enough for a window that only fetches. The result array is held whole by its one window.
-/
import proofs.«143528_j24867860644147_1_alg».proof.Proof.KernelData
import Idealize.ShloMosaic.Lib.Pipeline.Launch
import Idealize.ShloMosaic.Lib.Pipeline.Frame
import Idealize.ShloMosaic.Lib.Ring
import Idealize.ShloMosaic.Lib.Tactic

set_option maxRecDepth 16384

noncomputable section

namespace Cert.Kernel.Quad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

set_option maxHeartbeats 1000000 in
/-- The body on whole buffers — the four inputs' at contents `x0 … x3`, the result's at anything — runs to the
    continuation holding the inputs' as they were and the result's at the four side by side. -/
theorem four_copies (c : Dev nD) (E : Set ℕ) (i : grid0.Coords)
    (b0 : Memref sig .tc .vmem S1x56x112x64 .f32) (hb0 : b0.IsWhole) (b1 : Memref sig .tc .vmem S1x56x112x64 .f32) (hb1 : b1.IsWhole)
    (b2 : Memref sig .tc .vmem S1x56x112x64 .f32) (hb2 : b2.IsWhole) (b3 : Memref sig .tc .vmem S1x56x112x64 .f32) (hb3 : b3.IsWhole)
    (o : Memref sig .tc .vmem S1x56x112x256 .f32) (ho : o.IsWhole)
    (x0 x1 x2 x3 : Vec F S1x56x112x64 .f32) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ (∃ d, owns (c : Thread nD τ) o fullShare d)
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) o fullShare (sideBySide x0 x1 x2 x3)) -∗ K ⟨⟩))
      ⊢ wp frame (wpE (defs₀ (F := F)) Variants.none c none) E (cc0__sector4_kernel i b0 hb0 b1 hb1 b2 hb2 b3 hb3 o ho) K := by
  simp only [cc0__sector4_kernel_eq_skeleton]; unfold cc0__sector4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold sideBySide
  exact View.read_writes_eq_canon _ _ _ (sideBySide_cover _ _ _ _)

/-! ## The body at every point -/

/-- What the body is called with at point `t`, the windows one by one, -/
def atPoint (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def pastPoint (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so `four_copies` applies; what is owed passes through unread. -/
theorem body_at (c : Dev nD) (t : Fin cfg0.N) :
    atPoint m c t ⊢ wp frame (wpE (defs₀ (F := F)) Variants.none c none) Set.univ (bodyAt0 t) (fun _ => pastPoint m c t) := by
  unfold atPoint pastPoint bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (four_copies c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation. -/
theorem body_everywhere (c : Dev nD) : BodyObligation (dats (F := F) m 0 c) (defs₀ (F := F)) Variants.none () Set.univ := fun t => by
  rw [bigSep_W0, bigSep_W0]
  exact body_at m c t

/-! ## The one input array, cut in four -/

/-- The two distinct buffers behind the five windows' arrays. -/
theorem bigSep_arrays {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- A buffer held whole is held in four quarters. -/
theorem in_quarters (ℓ : Loc nD τ sig) (f : ℓ.ty.Contents (Elt F)) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) :=
  (pointsTo_share (PosShare.mem_left_op_right fullShare)).1.trans
    ((BIClass.sep_mono (pointsTo_share (PosShare.mem_left_op_right fullShare.left)).1
        (pointsTo_share (PosShare.mem_left_op_right fullShare.right)).1).trans (by
      iintro ⟨⟨A, B⟩, ⟨C, D⟩⟩
      isplitl [A]; · iexact A
      isplitl [B]; · iexact B
      isplitl [C]; · iexact C
      iexact D))

/-- The two arrays' buffers, whole, give the five windows their arrays: the result's whole, the input's in quarters. -/
theorem arrays_from_buffers (c : Dev nD) :
    (Pipeline.arrBufs spec0 c (V m c) : sProp 𝕄) ⊢ (dats m 0 c).arrays ((dats m 0 c).arrAt · 0) := by
  unfold Pipeline.arrBufs Dat.arrays
  rw [bigSep_arrays, bigSep_W0]
  have hs : ∀ w, (cfg0.win w).arr.view.set = Finset.univ := fun w => (arr_whole0 w).set_eq_univ
  rw [hs 0, hs 4]
  refine (BIClass.sep_mono (in_quarters ((c.tc : Thread nD τ).loc main_arg0) (V m c main_arg0)) .rfl).trans ?_
  iintro ⟨⟨A, B, C, D⟩, Ho⟩
  isplitl [A]; · iexact A
  isplitl [B]; · iexact B
  isplitl [C]; · iexact C
  isplitl [D]; · iexact D
  iexact Ho

/-! ## The program, from launch to return -/

set_option backward.isDefEq.respectTransparency.types false in
/-- From any memory with zero counters every weakly fair execution of the program terminates, and every window's array
    then holds what the write-backs of all 64 points leave in it. -/
theorem run_arrays : θ_run defs (onTc (τ := τ) (main (F := F))) (s₀ m ρ) (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_everywhere m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := Pipeline.hmain_region cfgs 0 defs₀ Variants.none m main fun c => (main_chain c).trans rfl)
    (hsplit := arrays_from_buffers m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = iprop(emp) from rfl]; iintro ⟨-, H⟩; iexact H)
    (hout := fun c => by
      rw [scopedRest0_eq, show (dats m 0 c).Φ (Fin.last cfg0.N) = iprop(emp) from rfl]; iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The program's run with its two arrays named: the result array at what the 64 write-backs leave, the input array
    as launched (no write-back ever touches an input window's array). -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)) :=
  (θ_run defs _ _).mono (fun _ h c => ⟨h c 4, (h c 0).trans (((dats m 0 c).arrAt_in 0 rfl _).trans (A_eq m c 0))⟩) (run_arrays m ρ)

/-- The frame: the program runs to the end and its input array is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

end Cert.Kernel.Quad

end
-- ==== Proof.KernelIdealData.lean ====
/-
  The proof data of the quadrant kernel's one pipeline, for any float instance.

  The pipeline has five windows. Windows 0 to 3 all read the ONE input array: at grid point (i, j) — image i, upper or
  lower half j of a quadrant's 112 rows — they fetch the 56 × 112 × 64 block of the top-left, top-right,
  bottom-left and bottom-right quadrant. Window 4 is the result's 56 × 112 × 256 block at the same point. The body copies
  input block q into channels 64 q … 64 q + 63 of the result block, so after the body the result's staging buffer is the
  four input blocks laid side by side along the channel axis (`sideBySide`), and every input buffer still holds its block.
  Because four windows hold the same array, each holds it at a quarter share.
-/
import proofs.«143528_j24867860644147_1_alg».proof.Proof.Gen.KernelIdeal.Launch
import proofs.«143528_j24867860644147_1_alg».proof.Proof.Gen.KernelIdeal.Skeleton
import proofs.«143528_j24867860644147_1_alg».proof.Proof.Gen.KernelIdeal.Points
import Idealize.ShloMosaic.Lib.Pipeline.FrameBody

set_option maxRecDepth 16384

noncomputable section

namespace Cert.KernelIdeal.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## The arrays and their blocks -/

/-- Core `c`'s buffers when the region is entered: as launched, the region being all of the program. -/
abbrev V (c : Dev nD) (b : Ref sig .tc) : Buf (Elt F) ((c : Thread nD τ).loc b) := m ((c : Thread nD τ).loc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result's buffer -/

/-- An input buffer, whole. -/
abbrev rIn : Rect S1x56x112x64 := Rect.unit (s := S1x56x112x64) ![0, 0, 0, 0] S1x56x112x64.size inb_S1x56x112x64_S1x56x112x64_0_0_0_0
/-- The result buffer's channels 0 … 63, 64 … 127, 128 … 191 and 192 … 255. -/
abbrev rQ0 : Rect S1x56x112x256 := Rect.unit (s := S1x56x112x256) ![0, 0, 0, 0] S1x56x112x64.size inb_S1x56x112x256_S1x56x112x64_0_0_0_0
abbrev rQ1 : Rect S1x56x112x256 := Rect.unit (s := S1x56x112x256) ![0, 0, 0, 64] S1x56x112x64.size inb_S1x56x112x256_S1x56x112x64_0_0_0_64
abbrev rQ2 : Rect S1x56x112x256 := Rect.unit (s := S1x56x112x256) ![0, 0, 0, 128] S1x56x112x64.size inb_S1x56x112x256_S1x56x112x64_0_0_0_128
abbrev rQ3 : Rect S1x56x112x256 := Rect.unit (s := S1x56x112x256) ![0, 0, 0, 192] S1x56x112x64.size inb_S1x56x112x256_S1x56x112x64_0_0_0_192

/-- Four blocks laid side by side along the channel axis: the four stores of the body, the last one first. -/
def sideBySide (x0 x1 x2 x3 : Vec F S1x56x112x64 .f32) : Vec F S1x56x112x256 .f32 :=
  View.canon [⟨rQ3, View.ld x3 rIn⟩, ⟨rQ2, View.ld x2 rIn⟩, ⟨rQ1, View.ld x1 rIn⟩, ⟨rQ0, View.ld x0 rIn⟩]

/-- The four channel ranges tile the result buffer. -/
theorem sideBySide_cover (p0 p1 p2 p3 : Vec F S1x56x112x64 .f32) (y : S1x56x112x256.Idx) :
    ∃ pc ∈ ([⟨rQ3, p3⟩, ⟨rQ2, p2⟩, ⟨rQ1, p1⟩, ⟨rQ0, p0⟩] : List (View.Piece (Elt F) S1x56x112x256 .f32)), y ∈ pc.1.set :=
  View.cover_of_tiled [⟨rQ3, p3⟩, ⟨rQ2, p2⟩, ⟨rQ1, p1⟩, ⟨rQ0, p0⟩] S1x56x112x64.size (by rfl) y

/-! ## The proof data -/

/-- The input array is held by four windows: each at a quarter. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare

/-- The proof data on core `c`: the arrays as launched; after the body at point `t` every input buffer at its block and
    the result buffer at the four blocks side by side; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => sideBySide (iblk m c 0 t) (iblk m c 1 t) (iblk m c 2 t) (iblk m c 3 t)
  Φ _ := iprop(emp)
  q := quarter
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = sideBySide (iblk m c 0 t) (iblk m c 1 t) (iblk m c 2 t) (iblk m c 3 t) := by dsimp only [dats]

/-- Every input window is fetched at every point, so the body finds its block in the buffer. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

end Cert.KernelIdeal.Quad

end
-- ==== Proof.KernelIdealRun.lean ====
/-
  The quadrant kernel's run, for any float instance: the body at one grid point, the body at every point, and the
  whole program from launch to return.

  At a grid point the body holds each of the four input buffers at its quadrant's block and the result buffer at
  anything; it loads each input buffer whole and stores it into its own range of 64 channels of the result buffer (before
  each store it also loads that range of the result buffer, a value it never uses). The four ranges tile the result
  buffer, so the buffer ends holding the four blocks side by side, and the input buffers are as they were.
  Nothing is carried from point to point.

  The four input windows read ONE array. At launch the array's buffer is held whole; it is cut into four quarter
  shares, one per window, which is enough for a window that only fetches. The result array is held whole by its one window.
-/
import proofs.«143528_j24867860644147_1_alg».proof.Proof.KernelIdealData
import Idealize.ShloMosaic.Lib.Pipeline.Launch
import Idealize.ShloMosaic.Lib.Pipeline.Frame
import Idealize.ShloMosaic.Lib.Ring
import Idealize.ShloMosaic.Lib.Tactic

set_option maxRecDepth 16384

noncomputable section

namespace Cert.KernelIdeal.Quad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

set_option maxHeartbeats 1000000 in
/-- The body on whole buffers — the four inputs' at contents `x0 … x3`, the result's at anything — runs to the
    continuation holding the inputs' as they were and the result's at the four side by side. -/
theorem four_copies (c : Dev nD) (E : Set ℕ) (i : grid0.Coords)
    (b0 : Memref sig .tc .vmem S1x56x112x64 .f32) (hb0 : b0.IsWhole) (b1 : Memref sig .tc .vmem S1x56x112x64 .f32) (hb1 : b1.IsWhole)
    (b2 : Memref sig .tc .vmem S1x56x112x64 .f32) (hb2 : b2.IsWhole) (b3 : Memref sig .tc .vmem S1x56x112x64 .f32) (hb3 : b3.IsWhole)
    (o : Memref sig .tc .vmem S1x56x112x256 .f32) (ho : o.IsWhole)
    (x0 x1 x2 x3 : Vec F S1x56x112x64 .f32) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ (∃ d, owns (c : Thread nD τ) o fullShare d)
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) o fullShare (sideBySide x0 x1 x2 x3)) -∗ K ⟨⟩))
      ⊢ wp frame (wpE (defs₀ (F := F)) Variants.none c none) E (cc0__sector4_kernel i b0 hb0 b1 hb1 b2 hb2 b3 hb3 o ho) K := by
  simp only [cc0__sector4_kernel_eq_skeleton]; unfold cc0__sector4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold sideBySide
  exact View.read_writes_eq_canon _ _ _ (sideBySide_cover _ _ _ _)

/-! ## The body at every point -/

/-- What the body is called with at point `t`, the windows one by one, -/
def atPoint (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def pastPoint (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so `four_copies` applies; what is owed passes through unread. -/
theorem body_at (c : Dev nD) (t : Fin cfg0.N) :
    atPoint m c t ⊢ wp frame (wpE (defs₀ (F := F)) Variants.none c none) Set.univ (bodyAt0 t) (fun _ => pastPoint m c t) := by
  unfold atPoint pastPoint bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (four_copies c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation. -/
theorem body_everywhere (c : Dev nD) : BodyObligation (dats (F := F) m 0 c) (defs₀ (F := F)) Variants.none () Set.univ := fun t => by
  rw [bigSep_W0, bigSep_W0]
  exact body_at m c t

/-! ## The one input array, cut in four -/

/-- The two distinct buffers behind the five windows' arrays. -/
theorem bigSep_arrays {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- A buffer held whole is held in four quarters. -/
theorem in_quarters (ℓ : Loc nD τ sig) (f : ℓ.ty.Contents (Elt F)) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) :=
  (pointsTo_share (PosShare.mem_left_op_right fullShare)).1.trans
    ((BIClass.sep_mono (pointsTo_share (PosShare.mem_left_op_right fullShare.left)).1
        (pointsTo_share (PosShare.mem_left_op_right fullShare.right)).1).trans (by
      iintro ⟨⟨A, B⟩, ⟨C, D⟩⟩
      isplitl [A]; · iexact A
      isplitl [B]; · iexact B
      isplitl [C]; · iexact C
      iexact D))

/-- The two arrays' buffers, whole, give the five windows their arrays: the result's whole, the input's in quarters. -/
theorem arrays_from_buffers (c : Dev nD) :
    (Pipeline.arrBufs spec0 c (V m c) : sProp 𝕄) ⊢ (dats m 0 c).arrays ((dats m 0 c).arrAt · 0) := by
  unfold Pipeline.arrBufs Dat.arrays
  rw [bigSep_arrays, bigSep_W0]
  have hs : ∀ w, (cfg0.win w).arr.view.set = Finset.univ := fun w => (arr_whole0 w).set_eq_univ
  rw [hs 0, hs 4]
  refine (BIClass.sep_mono (in_quarters ((c.tc : Thread nD τ).loc main_arg0) (V m c main_arg0)) .rfl).trans ?_
  iintro ⟨⟨A, B, C, D⟩, Ho⟩
  isplitl [A]; · iexact A
  isplitl [B]; · iexact B
  isplitl [C]; · iexact C
  isplitl [D]; · iexact D
  iexact Ho

/-! ## The program, from launch to return -/

set_option backward.isDefEq.respectTransparency.types false in
/-- From any memory with zero counters every weakly fair execution of the program terminates, and every window's array
    then holds what the write-backs of all 64 points leave in it. -/
theorem run_arrays : θ_run defs (onTc (τ := τ) (main (F := F))) (s₀ m ρ) (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_everywhere m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := Pipeline.hmain_region cfgs 0 defs₀ Variants.none m main fun c => (main_chain c).trans rfl)
    (hsplit := arrays_from_buffers m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = iprop(emp) from rfl]; iintro ⟨-, H⟩; iexact H)
    (hout := fun c => by
      rw [scopedRest0_eq, show (dats m 0 c).Φ (Fin.last cfg0.N) = iprop(emp) from rfl]; iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The program's run with its two arrays named: the result array at what the 64 write-backs leave, the input array
    as launched (no write-back ever touches an input window's array). -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)) :=
  (θ_run defs _ _).mono (fun _ h c => ⟨h c 4, (h c 0).trans (((dats m 0 c).arrAt_in 0 rfl _).trans (A_eq m c 0))⟩) (run_arrays m ρ)

/-- The frame: the program runs to the end and its input array is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

end Cert.KernelIdeal.Quad

end
-- ==== Proof.QuadrantSpec.lean ====
/-
  The result both programs compute, as ONE function of the input array.

  The input is a batch of 32 images of 224 × 224 pixels with 64 channels each. The result has 32 images of
  112 × 112 pixels with 256 channels: the image plane is cut into its four 112 × 112 quadrants (top-left,
  top-right, bottom-left, bottom-right, in that order) and the quadrants are laid side by side along the channel
  axis. So channel `k` of result pixel `(h, w)` is channel `k % 64` of quadrant `k / 64` at the same pixel: the
  quadrant's row offset is 112 for the two bottom quadrants (`k / 128 = 1`) and its column offset is 112 for the two
  right quadrants (`k / 64` odd). Nothing is computed: every result entry is one input entry, whatever the
  element type.
-/
import Idealize.ShloMosaic.Lib.ValueIdx

namespace Cert.Sector4

open Idealize.ShloMosaic Idealize.ShloMosaic.ValueIdx

/-- The input's shape: batch, rows, columns, channels. -/
abbrev SIn : Shape := ⟨4, ![32, 224, 224, 64]⟩
/-- The result's shape: batch, rows and columns of one quadrant, four quadrants' channels. -/
abbrev SOut : Shape := ⟨4, ![32, 112, 112, 256]⟩

/-- The input row a result entry comes from: its own row, 112 further down for the bottom quadrants. -/
def srcRow (h : Fin 112) (k : Fin 256) : Fin 224 := ⟨h.val + 112 * (k.val / 128), by have := h.isLt; have := k.isLt; omega⟩
/-- The input column: its own column, 112 further right for the right quadrants. -/
def srcCol (w : Fin 112) (k : Fin 256) : Fin 224 := ⟨w.val + 112 * (k.val / 64 % 2), by have := w.isLt; omega⟩
/-- The input channel: the channel within its quadrant. -/
def srcChan (k : Fin 256) : Fin 64 := ⟨k.val % 64, Nat.mod_lt _ (by decide)⟩

/-- The input entry result entry `j` is a copy of. -/
def src (j : SOut.Idx) : SIn.Idx := ix4 (n0 := 32) (n1 := 224) (n2 := 224) (n3 := 64) (j 0) (srcRow (j 1) (j 3)) (srcCol (j 2) (j 3)) (srcChan (j 3))

/-- The four quadrants of every image laid side by side along the channel axis. -/
def quadrants {α : Type} (x : SIn.Idx → α) : SOut.Idx → α := fun j => x (src j)

theorem quadrants_apply {α : Type} (x : SIn.Idx → α) (j : SOut.Idx) : quadrants x j = x (src j) := rfl

@[simp] theorem src_0 (j : SOut.Idx) : ((src j) 0).val = (j 0).val := rfl
@[simp] theorem src_1 (j : SOut.Idx) : ((src j) 1).val = (j 1).val + 112 * ((j 3).val / 128) := rfl
@[simp] theorem src_2 (j : SOut.Idx) : ((src j) 2).val = (j 2).val + 112 * ((j 3).val / 64 % 2) := rfl
@[simp] theorem src_3 (j : SOut.Idx) : ((src j) 3).val = (j 3).val % 64 := rfl

end Cert.Sector4
-- ==== Proof.KernelIdealValue.lean ====
/-
  The quadrant kernel's result array after the last write-back, as ONE function of the input array.

  At grid point (i, j) the result's staging buffer holds four input blocks side by side along the channel axis: block q
  (channels 64 q … 64 q + 63) is the 56 × 112 × 64 block of image i whose rows start at 56 j, 112 further down for the two
  bottom quadrants, and whose columns start at 0 for the left and at 112 for the right quadrants. The result's block at
  that point is rows 56 j … 56 j + 55 of image i. So entry (r, w, k) of the block is the input entry at row
  56 j + r + 112 (k / 128), column w + 112 (k / 64 % 2), channel k % 64 of image i: the block of the quadrants function.
  The 64 blocks tile the result array, so the array ends at the quadrants function of the input.
-/
import proofs.«143528_j24867860644147_1_alg».proof.Proof.KernelIdealData
import proofs.«143528_j24867860644147_1_alg».proof.Proof.QuadrantSpec
import Idealize.ShloMosaic.Lib.Pipeline.Value
import Idealize.ShloMosaic.Lib.ValueIdx

set_option maxRecDepth 16384

noncomputable section

namespace Cert.KernelIdeal.Quad

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The index maps over the grid -/

/-- The result's block index at a point: (image, half, 0, 0), the image below 32 and the half below 2. -/
theorem outIndex : ∀ t : Fin cfg0.N, win0_4.index t (2 : Fin 4) = 0 ∧ win0_4.index t (3 : Fin 4) = 0
    ∧ win0_4.index t (0 : Fin 4) ≤ 31 ∧ win0_4.index t (1 : Fin 4) ≤ 1 :=
  (by decide +kernel : ∀ t : Fin grid0.N, _)

/-- The top-left quadrant's block index is the result's. -/
theorem topLeftIndex : ∀ t : Fin cfg0.N, win0_0.index t (0 : Fin 4) = win0_4.index t (0 : Fin 4)
    ∧ win0_0.index t (1 : Fin 4) = win0_4.index t (1 : Fin 4)
    ∧ win0_0.index t (2 : Fin 4) = 0 ∧ win0_0.index t (3 : Fin 4) = 0 :=
  (by decide +kernel : ∀ t : Fin grid0.N, _)

/-- The top-right quadrant's block is one block to the right. -/
theorem topRightIndex : ∀ t : Fin cfg0.N, win0_1.index t (0 : Fin 4) = win0_4.index t (0 : Fin 4)
    ∧ win0_1.index t (1 : Fin 4) = win0_4.index t (1 : Fin 4)
    ∧ win0_1.index t (2 : Fin 4) = 1 ∧ win0_1.index t (3 : Fin 4) = 0 :=
  (by decide +kernel : ∀ t : Fin grid0.N, _)

/-- The bottom-left quadrant's block is two blocks down. -/
theorem bottomLeftIndex : ∀ t : Fin cfg0.N, win0_2.index t (0 : Fin 4) = win0_4.index t (0 : Fin 4)
    ∧ win0_2.index t (1 : Fin 4) = win0_4.index t (1 : Fin 4) + 2
    ∧ win0_2.index t (2 : Fin 4) = 0 ∧ win0_2.index t (3 : Fin 4) = 0 :=
  (by decide +kernel : ∀ t : Fin grid0.N, _)

/-- The bottom-right quadrant's block is two blocks down and one to the right. -/
theorem bottomRightIndex : ∀ t : Fin cfg0.N, win0_3.index t (0 : Fin 4) = win0_4.index t (0 : Fin 4)
    ∧ win0_3.index t (1 : Fin 4) = win0_4.index t (1 : Fin 4) + 2
    ∧ win0_3.index t (2 : Fin 4) = 1 ∧ win0_3.index t (3 : Fin 4) = 0 :=
  (by decide +kernel : ∀ t : Fin grid0.N, _)

/-- Every (image, half) is some point's result block. -/
theorem outIndex_onto : ∀ (i : Fin 32) (j : Fin 2), ∃ t : Fin cfg0.N, win0_4.index t = ![i.val, j.val, 0, 0] :=
  (by decide +kernel : ∀ (i : Fin 32) (j : Fin 2), ∃ t : Fin grid0.N, win0_4.index t = ![i.val, j.val, 0, 0])

/-! ## One quadrant's block inside the result's block

A block's coordinate in its array is the block index times the block's size plus the coordinate inside the block. The
result block's channel 64 q + k' (k' below 64) has quotient q by 64, so its source row is shifted by 112 = 2 · 56 for
q = 2, 3 (two blocks down) and its source column by 112 (one block to the right) for q = 1, 3, and its source channel is k'. -/

theorem zeroOffsets : (![0, 0, 0, 0] : Fin 4 → Nat) = fun _ => 0 := funext fun a => by fin_cases a <;> rfl

/-- Point `t`'s block of the quadrants function of the input array. -/
abbrev blockOfQuadrants (c : Dev nD) (t : Fin cfg0.N) : S1x56x112x256.Idx → Elt F .f32 :=
  ((cfg0.win 4).blk t).view.read (Elt F) (Cert.Sector4.quadrants (V m c main_arg0))

/-- The top-left quadrant's block is channels 0 … 63 of that block. -/
theorem topLeft_eq (c : Dev nD) (t : Fin cfg0.N) (x : S1x56x112x64.Idx) :
    iblk m c 0 t x = blockOfQuadrants m c t (rQ0.emb x) := by
  obtain ⟨o2, o3, o0, o1⟩ := outIndex t
  obtain ⟨e0, e1, e2, e3⟩ := topLeftIndex t
  show V m c main_arg0 (((cfg0.win 0).blk t).view.emb x)
    = V m c main_arg0 (Cert.Sector4.src (((cfg0.win 4).blk t).view.emb (rQ0.emb x)))
  refine congrArg _ (funext fun a => Fin.ext ?_)
  have h1 : (x 1).val < 56 := (x 1).isLt
  have h2 : (x 2).val < 112 := (x 2).isLt
  have h3 : (x 3).val < 64 := (x 3).isLt
  match a with
  | ⟨0, _⟩ =>
    show win0_0.index t (0 : Fin 4) * 1 + 1 * (x 0).val = win0_4.index t (0 : Fin 4) * 1 + 1 * (0 + 1 * (x 0).val)
    omega
  | ⟨1, _⟩ =>
    show win0_0.index t (1 : Fin 4) * 56 + 1 * (x 1).val
      = win0_4.index t (1 : Fin 4) * 56 + 1 * (0 + 1 * (x 1).val)
        + 112 * ((win0_4.index t (3 : Fin 4) * 256 + 1 * (0 + 1 * (x 3).val)) / 128)
    omega
  | ⟨2, _⟩ =>
    show win0_0.index t (2 : Fin 4) * 112 + 1 * (x 2).val
      = win0_4.index t (2 : Fin 4) * 112 + 1 * (0 + 1 * (x 2).val)
        + 112 * ((win0_4.index t (3 : Fin 4) * 256 + 1 * (0 + 1 * (x 3).val)) / 64 % 2)
    omega
  | ⟨3, _⟩ =>
    show win0_0.index t (3 : Fin 4) * 64 + 1 * (x 3).val
      = (win0_4.index t (3 : Fin 4) * 256 + 1 * (0 + 1 * (x 3).val)) % 64
    omega

/-- The top-right quadrant's block is channels 64 … 127. -/
theorem topRight_eq (c : Dev nD) (t : Fin cfg0.N) (x : S1x56x112x64.Idx) :
    iblk m c 1 t x = blockOfQuadrants m c t (rQ1.emb x) := by
  obtain ⟨o2, o3, o0, o1⟩ := outIndex t
  obtain ⟨e0, e1, e2, e3⟩ := topRightIndex t
  show V m c main_arg0 (((cfg0.win 1).blk t).view.emb x)
    = V m c main_arg0 (Cert.Sector4.src (((cfg0.win 4).blk t).view.emb (rQ1.emb x)))
  refine congrArg _ (funext fun a => Fin.ext ?_)
  have h1 : (x 1).val < 56 := (x 1).isLt
  have h2 : (x 2).val < 112 := (x 2).isLt
  have h3 : (x 3).val < 64 := (x 3).isLt
  match a with
  | ⟨0, _⟩ =>
    show win0_1.index t (0 : Fin 4) * 1 + 1 * (x 0).val = win0_4.index t (0 : Fin 4) * 1 + 1 * (0 + 1 * (x 0).val)
    omega
  | ⟨1, _⟩ =>
    show win0_1.index t (1 : Fin 4) * 56 + 1 * (x 1).val
      = win0_4.index t (1 : Fin 4) * 56 + 1 * (0 + 1 * (x 1).val)
        + 112 * ((win0_4.index t (3 : Fin 4) * 256 + 1 * (64 + 1 * (x 3).val)) / 128)
    omega
  | ⟨2, _⟩ =>
    show win0_1.index t (2 : Fin 4) * 112 + 1 * (x 2).val
      = win0_4.index t (2 : Fin 4) * 112 + 1 * (0 + 1 * (x 2).val)
        + 112 * ((win0_4.index t (3 : Fin 4) * 256 + 1 * (64 + 1 * (x 3).val)) / 64 % 2)
    omega
  | ⟨3, _⟩ =>
    show win0_1.index t (3 : Fin 4) * 64 + 1 * (x 3).val
      = (win0_4.index t (3 : Fin 4) * 256 + 1 * (64 + 1 * (x 3).val)) % 64
    omega

/-- The bottom-left quadrant's block is channels 128 … 191. -/
theorem bottomLeft_eq (c : Dev nD) (t : Fin cfg0.N) (x : S1x56x112x64.Idx) :
    iblk m c 2 t x = blockOfQuadrants m c t (rQ2.emb x) := by
  obtain ⟨o2, o3, o0, o1⟩ := outIndex t
  obtain ⟨e0, e1, e2, e3⟩ := bottomLeftIndex t
  show V m c main_arg0 (((cfg0.win 2).blk t).view.emb x)
    = V m c main_arg0 (Cert.Sector4.src (((cfg0.win 4).blk t).view.emb (rQ2.emb x)))
  refine congrArg _ (funext fun a => Fin.ext ?_)
  have h1 : (x 1).val < 56 := (x 1).isLt
  have h2 : (x 2).val < 112 := (x 2).isLt
  have h3 : (x 3).val < 64 := (x 3).isLt
  match a with
  | ⟨0, _⟩ =>
    show win0_2.index t (0 : Fin 4) * 1 + 1 * (x 0).val = win0_4.index t (0 : Fin 4) * 1 + 1 * (0 + 1 * (x 0).val)
    omega
  | ⟨1, _⟩ =>
    show win0_2.index t (1 : Fin 4) * 56 + 1 * (x 1).val
      = win0_4.index t (1 : Fin 4) * 56 + 1 * (0 + 1 * (x 1).val)
        + 112 * ((win0_4.index t (3 : Fin 4) * 256 + 1 * (128 + 1 * (x 3).val)) / 128)
    omega
  | ⟨2, _⟩ =>
    show win0_2.index t (2 : Fin 4) * 112 + 1 * (x 2).val
      = win0_4.index t (2 : Fin 4) * 112 + 1 * (0 + 1 * (x 2).val)
        + 112 * ((win0_4.index t (3 : Fin 4) * 256 + 1 * (128 + 1 * (x 3).val)) / 64 % 2)
    omega
  | ⟨3, _⟩ =>
    show win0_2.index t (3 : Fin 4) * 64 + 1 * (x 3).val
      = (win0_4.index t (3 : Fin 4) * 256 + 1 * (128 + 1 * (x 3).val)) % 64
    omega

/-- The bottom-right quadrant's block is channels 192 … 255. -/
theorem bottomRight_eq (c : Dev nD) (t : Fin cfg0.N) (x : S1x56x112x64.Idx) :
    iblk m c 3 t x = blockOfQuadrants m c t (rQ3.emb x) := by
  obtain ⟨o2, o3, o0, o1⟩ := outIndex t
  obtain ⟨e0, e1, e2, e3⟩ := bottomRightIndex t
  show V m c main_arg0 (((cfg0.win 3).blk t).view.emb x)
    = V m c main_arg0 (Cert.Sector4.src (((cfg0.win 4).blk t).view.emb (rQ3.emb x)))
  refine congrArg _ (funext fun a => Fin.ext ?_)
  have h1 : (x 1).val < 56 := (x 1).isLt
  have h2 : (x 2).val < 112 := (x 2).isLt
  have h3 : (x 3).val < 64 := (x 3).isLt
  match a with
  | ⟨0, _⟩ =>
    show win0_3.index t (0 : Fin 4) * 1 + 1 * (x 0).val = win0_4.index t (0 : Fin 4) * 1 + 1 * (0 + 1 * (x 0).val)
    omega
  | ⟨1, _⟩ =>
    show win0_3.index t (1 : Fin 4) * 56 + 1 * (x 1).val
      = win0_4.index t (1 : Fin 4) * 56 + 1 * (0 + 1 * (x 1).val)
        + 112 * ((win0_4.index t (3 : Fin 4) * 256 + 1 * (192 + 1 * (x 3).val)) / 128)
    omega
  | ⟨2, _⟩ =>
    show win0_3.index t (2 : Fin 4) * 112 + 1 * (x 2).val
      = win0_4.index t (2 : Fin 4) * 112 + 1 * (0 + 1 * (x 2).val)
        + 112 * ((win0_4.index t (3 : Fin 4) * 256 + 1 * (192 + 1 * (x 3).val)) / 64 % 2)
    omega
  | ⟨3, _⟩ =>
    show win0_3.index t (3 : Fin 4) * 64 + 1 * (x 3).val
      = (win0_4.index t (3 : Fin 4) * 256 + 1 * (192 + 1 * (x 3).val)) % 64
    omega

/-! ## What a point writes back, and the array after the last point -/

/-- The four blocks side by side are the block of the quadrants function: each of the four stored pieces is the part of
    that one function its channel range names, and the four ranges tile the buffer. -/
theorem sideBySide_eq (c : Dev nD) (t : Fin cfg0.N) :
    sideBySide (iblk m c 0 t) (iblk m c 1 t) (iblk m c 2 t) (iblk m c 3 t) = blockOfQuadrants m c t := by
  have ld : ∀ X : Vec F S1x56x112x64 .f32, View.ld X rIn = X := fun X => View.ld_unit_zero zeroOffsets _ X
  funext y
  unfold sideBySide
  rw [ld, ld, ld, ld]
  refine View.canon_apply_of_pieces (blockOfQuadrants m c t) _ ?_ y (sideBySide_cover _ _ _ _ y)
  intro p hp
  rcases List.mem_cons.mp hp with rfl | hp
  · exact fun x => bottomRight_eq m c t x
  rcases List.mem_cons.mp hp with rfl | hp
  · exact fun x => bottomLeft_eq m c t x
  rcases List.mem_cons.mp hp with rfl | hp
  · exact fun x => topRight_eq m c t x
  rcases List.mem_cons.mp hp with rfl | hp
  · exact fun x => topLeft_eq m c t x
  · exact absurd hp List.not_mem_nil

/-- What point `t` writes back is its block of the quadrants function of the input array. -/
theorem flushed_eq (c : Dev nD) (t : Fin cfg0.N) :
    (dats m 0 c).flushed 4 t
      = ((cfg0.win 4).blk t).view.read (Elt F) (Cert.Sector4.quadrants (V m c main_arg0)) := by
  show (cfg0.win 4).cut (grid0.coords t) ((dats m 0 c).after 4 t) = _
  rw [after_4]
  exact sideBySide_eq m c t

/-- An index of the result array is in point `t`'s block iff each coordinate is in the block's range on its axis. -/
theorem mem_block (t : Fin cfg0.N) (i : S32x112x112x256.Idx) :
    i ∈ ((cfg0.win 4).blk t).view.set ↔ ∀ a : Fin 4, win0_4.index t a * S1x56x112x256.size a ≤ (i a).val
      ∧ (i a).val < win0_4.index t a * S1x56x112x256.size a + S1x56x112x256.size a := by
  show i ∈ ((View.whole main_v0).slice (win0_4.rect t)).set ↔ _
  rw [View.set_slice_whole, Rect.mem_set_unit]
  exact Iff.rfl

/-- The blocks tile the result array: row `r` of image `i` is in the block of the point (i, r / 56). -/
theorem covered (i : S32x112x112x256.Idx) :
    ∃ t : Fin cfg0.N, (cfg0.win 4).flush t = true ∧ i ∈ ((cfg0.win 4).blk t).view.set := by
  have h0 : (i 0).val < 32 := (i 0).isLt
  have h1 : (i 1).val < 112 := (i 1).isLt
  have h2 : (i 2).val < 112 := (i 2).isLt
  have h3 : (i 3).val < 256 := (i 3).isLt
  obtain ⟨t, ht⟩ := outIndex_onto ⟨(i 0).val, h0⟩ ⟨(i 1).val / 56, by omega⟩
  have q0 : win0_4.index t (0 : Fin 4) = (i 0).val := congrFun ht 0
  have q1 : win0_4.index t (1 : Fin 4) = (i 1).val / 56 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 56 ≤ (i 1).val ∧ (i 1).val < win0_4.index t (1 : Fin 4) * 56 + 56
    omega
  | ⟨2, _⟩ =>
    show win0_4.index t (2 : Fin 4) * 112 ≤ (i 2).val ∧ (i 2).val < win0_4.index t (2 : Fin 4) * 112 + 112
    omega
  | ⟨3, _⟩ =>
    show win0_4.index t (3 : Fin 4) * 256 ≤ (i 3).val ∧ (i 3).val < win0_4.index t (3 : Fin 4) * 256 + 256
    omega

/-- THE RESULT ARRAY after the last write-back is the quadrants function of the input array. -/
theorem result_eq (c : Dev nD) :
    (dats m 0 c).arrAt 4 cfg0.N = Cert.Sector4.quadrants (V m c main_arg0) :=
  (dats m 0 c).arrAt_eq_of_cover 4 (Cert.Sector4.quadrants (V m c main_arg0)) (fun t _ => flushed_eq m c t) covered

end Cert.KernelIdeal.Quad

end
-- ==== Proof.RefQuadrants.lean ====
/-
  The reference's result is the quadrants function.

  The reference cuts the image plane into its four 112 × 112 quadrants — four crops of the input at the row and
  column offsets (0, 0), (0, 112), (112, 0), (112, 112), each keeping all 64 channels — and joins the four crops
  end to end along the channel axis. A result channel k therefore lies in crop number k / 64, at that crop's own
  channel k − 64·(k / 64) = k % 64. Crop number q has row offset 112·(q / 2) and column offset 112·(q % 2); with
  q = k / 64 these are 112·(k / 128) and 112·(k / 64 % 2), the offsets of the quadrants function. So both sides
  read the same input entry at every result index: the proof goes through the four channel ranges one by one.
-/
import proofs.«143528_j24867860644147_1_alg».proof.Proof.Gen.ReferenceIdeal.Read
import proofs.«143528_j24867860644147_1_alg».proof.Proof.QuadrantSpec
import Idealize.ShloMosaic.Lib.Pipeline.Value
import Idealize.ShloMosaic.Lib.ValueIdx

noncomputable section

namespace Cert.Sector4.Ref

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

variable {F : FTy → Type} [FloatOps F]

/-- Result index j seen from inside the crop whose channels start at result channel pre: the same batch, row and
    column, and the channel counted from the crop's first. -/
abbrev inCrop (j : S32x112x112x256.Idx) (pre : Nat) (lo : pre ≤ (j 3).val) (hi : (j 3).val < pre + 64) :
    S32x112x112x64.Idx :=
  ix4 (n0 := 32) (n1 := 112) (n2 := 112) (n3 := 64) (j 0) (j 1) (j 2) ⟨(j 3).val - pre, by omega⟩

/-- Off the channel axis a result index and its index inside a crop have the same coordinates. -/
theorem inCrop_off (j : S32x112x112x256.Idx) (pre : Nat) (lo : pre ≤ (j 3).val) (hi : (j 3).val < pre + 64)
    (b : Fin 4) (hb : b ≠ 3) : (inCrop j pre lo hi b).val = (j b).val :=
  match b, hb with
  | ⟨0, _⟩, _ => rfl
  | ⟨1, _⟩, _ => rfl
  | ⟨2, _⟩, _ => rfl
  | ⟨3, _⟩, hb => absurd rfl hb

theorem ref_eq (x : (⟨Cert.ReferenceIdeal.S32x224x224x64, .f32⟩ : BufTy).Contents (Elt F)) :
    Cert.ReferenceIdeal.Read.val_main_v4 (F := F) x = Cert.Sector4.quadrants x := by
  funext j
  have h3 : (j 3).val < 256 := (j 3).isLt
  unfold Read.val_main_v4
  by_cases c0 : (j 3).val < 64
  · -- channels 0 … 63: crop 0, the top-left quadrant, no offset
    have lo : 0 ≤ (j 3).val := Nat.zero_le _
    have hi : (j 3).val < 0 + 64 := by omega
    refine (concatenate_apply_piece (a := 3) _ _ j 0 (by show (0 : Nat) < 4; decide) S32x112x112x64
      (val_main_v0 (F := F) x) rfl rfl 0 rfl (inCrop j 0 lo hi) (inCrop_off j 0 lo hi) ?_).trans ?_
    · show 0 + ((j 3).val - 0) = (j 3).val; omega
    · rw [Read.val_main_v0_apply, Cert.Sector4.quadrants_apply]
      congr 1; funext a; apply Fin.ext
      match a with
      | ⟨0, _⟩ => rfl
      | ⟨1, _⟩ => show (j 1).val = (j 1).val + 112 * ((j 3).val / 128); omega
      | ⟨2, _⟩ => show (j 2).val = (j 2).val + 112 * ((j 3).val / 64 % 2); omega
      | ⟨3, _⟩ => show (j 3).val - 0 = (j 3).val % 64; omega
  by_cases c1 : (j 3).val < 128
  · -- channels 64 … 127: crop 1, the top-right quadrant, 112 columns to the right
    have lo : 64 ≤ (j 3).val := by omega
    have hi : (j 3).val < 64 + 64 := by omega
    refine (concatenate_apply_piece (a := 3) _ _ j 1 (by show (1 : Nat) < 4; decide) S32x112x112x64
      (val_main_v1 (F := F) x) rfl rfl 64 rfl (inCrop j 64 lo hi) (inCrop_off j 64 lo hi) ?_).trans ?_
    · show 64 + ((j 3).val - 64) = (j 3).val; omega
    · rw [Read.val_main_v1_apply, Cert.Sector4.quadrants_apply]
      congr 1; funext a; apply Fin.ext
      match a with
      | ⟨0, _⟩ => rfl
      | ⟨1, _⟩ => show (j 1).val = (j 1).val + 112 * ((j 3).val / 128); omega
      | ⟨2, _⟩ => show 112 + (j 2).val = (j 2).val + 112 * ((j 3).val / 64 % 2); omega
      | ⟨3, _⟩ => show (j 3).val - 64 = (j 3).val % 64; omega
  by_cases c2 : (j 3).val < 192
  · -- channels 128 … 191: crop 2, the bottom-left quadrant, 112 rows down
    have lo : 128 ≤ (j 3).val := by omega
    have hi : (j 3).val < 128 + 64 := by omega
    refine (concatenate_apply_piece (a := 3) _ _ j 2 (by show (2 : Nat) < 4; decide) S32x112x112x64
      (val_main_v2 (F := F) x) rfl rfl 128 rfl (inCrop j 128 lo hi) (inCrop_off j 128 lo hi) ?_).trans ?_
    · show 128 + ((j 3).val - 128) = (j 3).val; omega
    · rw [Read.val_main_v2_apply, Cert.Sector4.quadrants_apply]
      congr 1; funext a; apply Fin.ext
      match a with
      | ⟨0, _⟩ => rfl
      | ⟨1, _⟩ => show 112 + (j 1).val = (j 1).val + 112 * ((j 3).val / 128); omega
      | ⟨2, _⟩ => show (j 2).val = (j 2).val + 112 * ((j 3).val / 64 % 2); omega
      | ⟨3, _⟩ => show (j 3).val - 128 = (j 3).val % 64; omega
  · -- channels 192 … 255: crop 3, the bottom-right quadrant, 112 rows down and 112 columns to the right
    have lo : 192 ≤ (j 3).val := by omega
    have hi : (j 3).val < 192 + 64 := by omega
    refine (concatenate_apply_piece (a := 3) _ _ j 3 (by show (3 : Nat) < 4; decide) S32x112x112x64
      (val_main_v3 (F := F) x) rfl rfl 192 rfl (inCrop j 192 lo hi) (inCrop_off j 192 lo hi) ?_).trans ?_
    · show 192 + ((j 3).val - 192) = (j 3).val; omega
    · rw [Read.val_main_v3_apply, Cert.Sector4.quadrants_apply]
      congr 1; funext a; apply Fin.ext
      match a with
      | ⟨0, _⟩ => rfl
      | ⟨1, _⟩ => show 112 + (j 1).val = (j 1).val + 112 * ((j 3).val / 128); omega
      | ⟨2, _⟩ => show 112 + (j 2).val = (j 2).val + 112 * ((j 3).val / 64 % 2); omega
      | ⟨3, _⟩ => show (j 3).val - 192 = (j 3).val % 64; omega

end Cert.Sector4.Ref
-- ==== Proof.lean ====
/-
  The certificate of the quadrant kernel against its reference: both lay the four 112 × 112 quadrants of every image
  side by side along the channel axis, and nothing else.

  The kernel is one pipeline over 32 × 2 grid points. At each point four windows fetch, from the one input array, the
  56-row blocks of the four quadrants, the body copies them into the four channel ranges of the result's block, and
  the block is written back; the 64 result blocks tile the result array, so it ends holding `quadrants` of the input
  (Proof/KernelIdealData.lean, KernelIdealRun.lean, KernelIdealValue.lean; the word-level program's run is the same
  text over its own names, Proof/KernelData.lean and KernelRun.lean). The reference crops the four quadrants and
  concatenates them along the channel axis, which is `quadrants` again (Proof/RefQuadrants.lean). The specification
  is Proof/QuadrantSpec.lean. No arithmetic is done on any element, so the precondition is never opened, and the ideal pass
  rewrote nothing, so there is nothing to preserve.
-/
import proofs.«143528_j24867860644147_1_alg».proof.Defs
import proofs.«143528_j24867860644147_1_alg».proof.Proof.Gen.Kernel
import proofs.«143528_j24867860644147_1_alg».proof.Proof.Gen.KernelIdeal
import proofs.«143528_j24867860644147_1_alg».proof.Proof.Gen.ReferenceIdeal
import proofs.«143528_j24867860644147_1_alg».proof.Proof.Gen.Pre_finite_inputs
import proofs.«143528_j24867860644147_1_alg».proof.Proof.Gen.ReferenceIdeal.Run
import proofs.«143528_j24867860644147_1_alg».proof.Proof.Gen.ReferenceIdeal.Read
import proofs.«143528_j24867860644147_1_alg».proof.Proof.KernelRun
import proofs.«143528_j24867860644147_1_alg».proof.Proof.KernelIdealRun
import proofs.«143528_j24867860644147_1_alg».proof.Proof.KernelIdealValue
import proofs.«143528_j24867860644147_1_alg».proof.Proof.RefQuadrants
import Idealize.ShloMosaic.Adequacy
import Idealize.ShloMosaic.Init

noncomputable section

namespace Cert.Proof

open Idealize.ShloMosaic Idealize.ShloMosaic.TcCoe Idealize.SL.Sem

/-- The word-level kernel runs to the end and leaves its input array alone. -/
theorem frame_kernel : Cert.frame_Kernel := fun m ρ _ => Cert.Kernel.Quad.frame m ρ

/-- So does the idealized kernel. -/
theorem frame_kernel_ideal : Cert.frame_KernelIdeal := fun m ρ _ => Cert.KernelIdeal.Quad.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the input array, both programs end with the result array at `quadrants` of it. -/
theorem algebraic : Cert.algebraic_KernelIdeal_ReferenceIdeal := by
  intro m ρ m' ρ' _ hagree
  refine ⟨fun c => Cert.Sector4.quadrants (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Quad.result_eq m c), (h c).2⟩) (Cert.KernelIdeal.Quad.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.Sector4.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
